-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S8192x1024 : Shape := ⟨2, ![8192, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x4096x1024 .f32) (main_arg1 : FVec F S8192x1024 .f32) (main_arg2 : FVec F S1024 .f32) (main_arg3 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x4096x1024 : Shape := ⟨3, ![4, 4096, 1024]⟩
abbrev S8192x1024 : Shape := ⟨2, ![8192, 1024]⟩
abbrev S1024 : Shape := ⟨1, ![1024]⟩
abbrev S16384x1024 : Shape := ⟨2, ![16384, 1024]⟩
abbrev S1x1024 : Shape := ⟨2, ![1, 1024]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 9
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S16384x1024, .f32⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S4x4096x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x4096x1024_S16384x1024 : S4x4096x1024.ShapeCasts S16384x1024
  shapeCasts_S1024_S1x1024 : S1024.ShapeCasts S1x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  reduces_S2048x1024_S2048 : S2048x1024.Reduces [1] S2048
  shapeCasts_S2048_S2048x1 : S2048.ShapeCasts S2048x1
  broadcasts_S2048x1_S2048x1024 : S2048x1.Broadcasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S16384x1024_S4x4096x1024 : S16384x1024.ShapeCasts S4x4096x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .f32 = 32 ∨ (Rect.block (s := S16384x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S8192x1024.size a
  hwx0_1 : ∀ i : grid0.Coords, EltTy.bits .f32 = 32 ∨ (Rect.block (s := S8192x1024) S2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S16384x1024.size a
  hwx0_4 : ∀ i : grid0.Coords, EltTy.bits .f32 = 32 ∨ (Rect.block (s := S16384x1024) S2048x1024.size (cc0_transform_4 i) (hinb0_4 i)).WholeWords (EltTy.packing .f32)

variable [Facts₀]

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S8192x1024 : Shape := ⟨2, ![8192, 1024]⟩
abbrev S1024 : Shape := ⟨1, ![1024]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x1024 : Shape := ⟨2, ![4096, 1024]⟩
abbrev S1x4096x1024 : Shape := ⟨3, ![1, 4096, 1024]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S4096, .i32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S4096x1, .i32⟩
  | .hbm, ⟨13, _⟩ => ⟨S1, .i32⟩
  | .hbm, ⟨14, _⟩ => ⟨S_, .i32⟩
  | .hbm, ⟨15, _⟩ => ⟨S4096x1, .i32⟩
  | .hbm, ⟨16, _⟩ => ⟨S4096x1, .i1⟩
  | .hbm, ⟨17, _⟩ => ⟨S1x1, .i32⟩
  | .hbm, ⟨18, _⟩ => ⟨S4096x1, .i32⟩
  | .hbm, ⟨19, _⟩ => ⟨S4096x1, .i1⟩
  | .hbm, ⟨20, _⟩ => ⟨S4096x1, .i1⟩
  | .hbm, ⟨21, _⟩ => ⟨S_, .i1⟩
  | .hbm, ⟨22, _⟩ => ⟨S4096, .i1⟩
  | .hbm, ⟨23, _⟩ => ⟨S4096x1024, .f32⟩
  | .hbm, ⟨24, _⟩ => ⟨S4096x1024, .i1⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S1x4096x1024, .f32⟩
  | .hbm, ⟨29, _⟩ => ⟨S4x4096x1024, .f32⟩
  | .hbm, ⟨30, _⟩ => ⟨S4x4096x1024, .f32⟩
  | .hbm, ⟨31, _⟩ => ⟨S_, .f32⟩
  | .hbm, ⟨32, _⟩ => ⟨S4x4096, .f32⟩
  | .hbm, ⟨33, _⟩ => ⟨S4x4096x1, .f32⟩
  | .hbm, ⟨34, _⟩ => ⟨S_, .f32⟩
  | .hbm, ⟨35, _⟩ => ⟨S4x4096x1, .f32⟩
  | .hbm, ⟨36, _⟩ => ⟨S4x4096x1, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S_, .f32⟩
  | .hbm, ⟨41, _⟩ => ⟨S4x4096, .f32⟩
  | .hbm, ⟨42, _⟩ => ⟨S4x4096x1, .f32⟩
  | .hbm, ⟨43, _⟩ => ⟨S_, .f32⟩
  | .hbm, ⟨44, _⟩ => ⟨S4x4096x1, .f32⟩
  | .hbm, ⟨45, _⟩ => ⟨S4x4096x1, .f32⟩
  | .hbm, ⟨46, _⟩ => ⟨S4x4096x1024, .f32⟩
  | .hbm, ⟨47, _⟩ => ⟨S4x4096x1024, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S4x4096x1, .f32⟩
  | .hbm, ⟨52, _⟩ => ⟨S4x4096x1024, .f32⟩
  | .hbm, ⟨53, _⟩ => ⟨S4x4096x1024, .f32⟩
  | .hbm, ⟨54, _⟩ => ⟨S1x1x1024, .f32⟩
  | .hbm, ⟨55, _⟩ => ⟨S4x4096x1024, .f32⟩
  | .hbm, ⟨56, _⟩ => ⟨S4x4096x1024, .f32⟩
  | .hbm, ⟨57, _⟩ => ⟨S1x1x1024, .f32⟩
  | .hbm, ⟨58, _⟩ => ⟨S4x4096x1024, .f32⟩
  | .hbm, ⟨59, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_cst_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_cst_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x1024_0 : S4096.BroadcastsInDim S4096x1024 (![0] : Fin 1 → Fin S4096x1024.rank)
  bcast_S_S4096x1024 : S_.BroadcastsInDim S4096x1024 (![] : Fin 0 → Fin S4096x1024.rank)
  bcast_S4096x1024_S1x4096x1024_1_2 : S4096x1024.BroadcastsInDim S1x4096x1024 (![1, 2] : Fin 2 → Fin S1x4096x1024.rank)
  bcast_S1x4096x1024_S4x4096x1024_0_1_2 : S1x4096x1024.BroadcastsInDim S4x4096x1024 (![0, 1, 2] : Fin 3 → Fin S4x4096x1024.rank)
  reducesTo_S4x4096x1024_S4x4096_d2 : S4x4096x1024.ReducesTo [2] S4x4096
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x1024_0_1_2 : S4x4096x1.BroadcastsInDim S4x4096x1024 (![0, 1, 2] : Fin 3 → Fin S4x4096x1024.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  gather_S8192x1024_S4096x1_S4096x1024_1_0_n_n_0_1_11024_wf : GatherDims.WF S8192x1024 S4096x1 S4096x1024 [1] [0] [] [0] [] 1 ![1, 1024]

variable [Facts₀]

def gather_S8192x1024_S4096x1_S4096x1024_1_0_n_n_0_1_11024 : GatherDims S8192x1024 S4096x1 S4096x1024 where
  offsetDims := [1]
  collapsedSliceDims := [0]
  operandBatchingDims := []
  startIndicesBatchingDims := []
  startIndexMap := [0]
  indexVectorDim := 1
  sliceSizes := ![1, 1024]
  wf := gather_S8192x1024_S4096x1_S4096x1024_1_0_n_n_0_1_11024_wf

class Facts : Prop extends Facts₀ where

variable [Facts]
-- ==== Proof.RowLaw.lean ====
/-
  One row of a layer normalisation, on the extended reals, in the two arrangements the two programs use.
  The kernel takes the variance as the mean of the squares less the square of the mean and multiplies the
  centred entry by the reciprocal square root; the reference takes the mean of the squared deviations and
  divides by the square root. On a row of real numbers the two variances are one real number, it is
  nonnegative, the added epsilon is positive, and so multiplying by the reciprocal root is dividing by the root.
-/
import Idealize.ShloMosaic.PureOps.Ideal
import Mathlib.Algebra.BigOperators.Ring.Finset
import Mathlib.Algebra.BigOperators.Field
import Mathlib.Analysis.SpecialFunctions.Sqrt

noncomputable section

namespace Cert.LayerNorm

open Idealize.ShloMosaic

/-- The row length, 1024, as the programs spell it. -/
abbrev nWord : BitVec 32 := 0x44800000#32
/-- The epsilon both programs add to the variance. -/
abbrev epsWord : BitVec 32 := 0x2B8CBCCC#32
/-- The zero the host's sums start from. -/
abbrev zeroWord : BitVec 32 := 0x00000000#32

variable {ι : Type} [Fintype ι]

/-- The kernel's arrangement: entry `yd` of the row `y`, scaled by `g` and shifted by `b`. -/
def rowK (y : ι → EReal) (yd g b : EReal) : EReal :=
  let mu := Ideal.div (∑ k, y k) (Ideal.ofBits .f32 nWord)
  let m2 := Ideal.div (∑ k, y k * y k) (Ideal.ofBits .f32 nWord)
  ((yd - mu) * Ideal.rsqrt ((m2 - mu * mu) + Ideal.ofBits .f32 epsWord)) * g + b

/-- The reference's arrangement. -/
def rowR (y : ι → EReal) (yd g b : EReal) : EReal :=
  let mu := Ideal.div (Ideal.ofBits .f32 zeroWord + ∑ k, y k) (Ideal.ofBits .f32 nWord)
  let var := Ideal.div (Ideal.ofBits .f32 zeroWord + ∑ k, (y k - mu) * (y k - mu)) (Ideal.ofBits .f32 nWord)
  Ideal.div (yd - mu) (Ideal.sqrt (var + Ideal.ofBits .f32 epsWord)) * g + b

/-- The row-length word denotes the real number 1024. -/
theorem ofBits_nWord : Ideal.ofBits .f32 nWord = ((1024 : ℝ) : EReal) := by
  show Ideal.ofBits .f32 0x44800000#32 = ((1024 : ℝ) : EReal)
  simp [Ideal.ofBits, Ideal.ieee, -EReal.coe_mul]; norm_num

/-- The zero word denotes zero. -/
theorem ofBits_zeroWord : Ideal.ofBits .f32 zeroWord = 0 := by
  show Ideal.ofBits .f32 0x00000000#32 = 0
  simp [Ideal.ofBits, Ideal.ieee]

/-- The epsilon word denotes a positive real number. -/
theorem ofBits_epsWord : ∃ ε : ℝ, 0 < ε ∧ Ideal.ofBits .f32 epsWord = (ε : EReal) := by
  show ∃ ε : ℝ, 0 < ε ∧ Ideal.ofBits .f32 0x2B8CBCCC#32 = (ε : EReal)
  simp [Ideal.ofBits, Ideal.ieee, -EReal.coe_mul]

/-- The coercion of a finite sum of reals is the sum of the coercions. -/
theorem coe_sum {α : Type} (s : Finset α) (f : α → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A sum of products of coerced reals is the coercion of the real sum of products. -/
theorem sum_coe_mul_self (r : ι → ℝ) :
    (∑ k, (r k : EReal) * (r k : EReal)) = ((∑ k, r k * r k : ℝ) : EReal) := by
  rw [coe_sum]; exact Finset.sum_congr rfl fun k _ => (EReal.coe_mul _ _).symm

/-- The sum of the squared deviations of coerced reals from a coerced real is the coercion of the real sum. -/
theorem sum_coe_dev (r : ι → ℝ) (μ : ℝ) :
    (∑ k, ((r k : EReal) - (μ : EReal)) * ((r k : EReal) - (μ : EReal)))
      = ((∑ k, (r k - μ) * (r k - μ) : ℝ) : EReal) := by
  rw [coe_sum]; exact Finset.sum_congr rfl fun k _ => by rw [← EReal.coe_sub, ← EReal.coe_mul]

/-- Over the reals, on 1024 entries: the mean of the squared deviations from the mean is the mean of the
    squares less the square of the mean. Writing `S` for the sum and `μ = S / 1024`, the sum of
    `(r k - μ)²` is `Σ r k² - 2 μ S + 1024 μ²`, and `1024 μ = S`. -/
theorem real_var (hι : Fintype.card ι = 1024) (r : ι → ℝ) (μ : ℝ) (hμ : μ = (∑ k, r k) * (1 / 1024)) :
    (∑ k, (r k - μ) * (r k - μ)) * (1 / 1024) = (∑ k, r k * r k) * (1 / 1024) - μ * μ := by
  have hS : (∑ k, r k) = 1024 * μ := by rw [hμ]; ring
  have h1 : ∀ k, (r k - μ) * (r k - μ) = r k * r k - (2 * μ) * r k + μ * μ := fun k => by ring
  simp only [h1]
  rw [Finset.sum_add_distrib, Finset.sum_sub_distrib, ← Finset.mul_sum, Finset.sum_const, Finset.card_univ, hι,
    hS, nsmul_eq_mul]
  push_cast
  ring

/-- The mean of the squared deviations is nonnegative. -/
theorem real_var_nonneg (r : ι → ℝ) (μ : ℝ) : 0 ≤ (∑ k, (r k - μ) * (r k - μ)) * (1 / 1024) :=
  mul_nonneg (Finset.sum_nonneg fun k _ => mul_self_nonneg _) (by norm_num)

/-- At a positive real argument, multiplying by the reciprocal square root is dividing by the square root,
    whatever extended real is multiplied. -/
theorem mul_rsqrt_eq_div_sqrt (x : EReal) (v ε : ℝ) (hv : 0 ≤ v) (hε : 0 < ε) :
    x * Ideal.rsqrt ((v : EReal) + (ε : EReal)) = Ideal.div x (Ideal.sqrt ((v : EReal) + (ε : EReal))) := by
  have hpos : 0 < v + ε := by linarith
  have hsq : Real.sqrt (v + ε) ≠ 0 := (Real.sqrt_pos.mpr hpos).ne'
  rw [← EReal.coe_add, Ideal.rsqrt_coe, Ideal.sqrt_coe, if_neg (not_lt.mpr hpos.le), if_neg hpos.ne',
    if_neg (not_lt.mpr hpos.le), Ideal.div_coe hsq, one_div]

/-- On a row of 1024 real numbers the two arrangements agree, whatever `yd`, `g` and `b` are. -/
theorem rowK_eq_rowR (hι : Fintype.card ι = 1024) (y : ι → EReal) (hy : ∀ k, ∃ r : ℝ, y k = (r : EReal))
    (yd g b : EReal) : rowK y yd g b = rowR y yd g b := by
  choose r hr using hy
  obtain ⟨ε, hε, he⟩ := ofBits_epsWord
  obtain rfl : y = fun k => (r k : EReal) := funext hr
  have h1024 : (1024 : ℝ) ≠ 0 := by norm_num
  -- the mean is a real number
  obtain ⟨μ, hμ⟩ : ∃ μ : ℝ, μ = (∑ k, r k) * (1 / 1024) := ⟨_, rfl⟩
  have hmu : Ideal.div (∑ k, (r k : EReal)) ((1024 : ℝ) : EReal) = (μ : EReal) := by
    rw [Ideal.div_coe h1024, ← coe_sum, ← EReal.coe_mul, hμ]
  -- the common variance is a nonnegative real number
  obtain ⟨v, hv⟩ : ∃ v : ℝ, v = (∑ k, (r k - μ) * (r k - μ)) * (1 / 1024) := ⟨_, rfl⟩
  have hv0 : 0 ≤ v := hv ▸ real_var_nonneg r μ
  have hvarR : Ideal.div (∑ k, ((r k : EReal) - (μ : EReal)) * ((r k : EReal) - (μ : EReal))) ((1024 : ℝ) : EReal)
      = (v : EReal) := by
    rw [Ideal.div_coe h1024, sum_coe_dev, ← EReal.coe_mul, hv]
  have hvarK : Ideal.div (∑ k, (r k : EReal) * (r k : EReal)) ((1024 : ℝ) : EReal) - (μ : EReal) * (μ : EReal)
      = (v : EReal) := by
    rw [Ideal.div_coe h1024, sum_coe_mul_self, ← EReal.coe_mul, ← EReal.coe_mul, ← EReal.coe_sub, hv,
      real_var hι r μ hμ]
  simp only [rowK, rowR, ofBits_nWord, ofBits_zeroWord, he, zero_add]
  rw [hmu, hvarK, hvarR, mul_rsqrt_eq_div_sqrt _ v ε hv0 hε]

end Cert.LayerNorm

end
-- ==== Proof.Spec.lean ====
/-
  The result both programs compute, as one function of the four argument arrays, index by index: entry (b, s, d)
  is entry d of the normalised row `x[b, s, :] + pos[s, :]`, scaled by `gamma[d]` and shifted by `beta[d]`.
  `G` normalises a row in the reference's arrangement, `GK` in the kernel's; they agree when the embeddings and
  the position table hold real numbers.
-/
import proofs.«102654_g70497593197500_cont_sun_m_265_14_alg».proof.Proof.RowLaw
import Idealize.ShloMosaic.Lib.ValueIdx

noncomputable section

namespace Cert.LayerNorm

open Idealize.ShloMosaic Idealize.ShloMosaic.ValueIdx

/-- The embeddings' and the result's shape, the position table's, and the scale's and shift's. -/
abbrev SX : Shape := ⟨3, ![4, 4096, 1024]⟩
abbrev SP : Shape := ⟨2, ![8192, 1024]⟩
abbrev SV : Shape := ⟨1, ![1024]⟩

/-- Sequence position `s` as a row of the (longer) position table. -/
def posRow (s : Fin 4096) : Fin 8192 := Fin.castLE (by decide) s

theorem posRow_val (s : Fin 4096) : (posRow s).val = s.val := rfl

/-- The row that is normalised at batch entry `bi` and position `s`. -/
def rowOf (x : SX.Idx → EReal) (p : SP.Idx → EReal) (bi : Fin 4) (s : Fin 4096) : Fin 1024 → EReal :=
  fun k => x (ix3 bi s k) + p (ix2 (posRow s) k)

/-- The result, rows normalised in the reference's arrangement. -/
def G (x : SX.Idx → EReal) (p : SP.Idx → EReal) (g b : SV.Idx → EReal) : SX.Idx → EReal := fun i =>
  rowR (rowOf x p (i 0) (i 1)) (rowOf x p (i 0) (i 1) (i 2)) (g (ix1 (i 2))) (b (ix1 (i 2)))

/-- The result, rows normalised in the kernel's arrangement. -/
def GK (x : SX.Idx → EReal) (p : SP.Idx → EReal) (g b : SV.Idx → EReal) : SX.Idx → EReal := fun i =>
  rowK (rowOf x p (i 0) (i 1)) (rowOf x p (i 0) (i 1) (i 2)) (g (ix1 (i 2))) (b (ix1 (i 2)))

/-- On real embeddings and a real position table the two are one function. -/
theorem GK_eq_G (x : SX.Idx → EReal) (p : SP.Idx → EReal) (g b : SV.Idx → EReal)
    (hx : ∀ i, ∃ r : ℝ, x i = (r : EReal)) (hp : ∀ i, ∃ r : ℝ, p i = (r : EReal)) : GK x p g b = G x p g b := by
  funext i
  refine rowK_eq_rowR (by simp) _ (fun k => ?_) _ _ _
  obtain ⟨r, hr⟩ := hx (ix3 (i 0) (i 1) k)
  obtain ⟨q, hq⟩ := hp (ix2 (posRow (i 1)) k)
  exact ⟨r + q, by simp only [rowOf, hr, hq, EReal.coe_add]⟩

end Cert.LayerNorm

end
-- ==== Proof.Finite.lean ====
/-
  What the precondition says, entry by entry: when the finiteness predicate of the four argument arrays is all
  ones, every entry of the embeddings and of the position table is a real number (its absolute value is below
  +∞, so it is neither infinity).
-/
import proofs.«102654_g70497593197500_cont_sun_m_265_14_alg».proof.Pre_finite_inputs
import proofs.«102654_g70497593197500_cont_sun_m_265_14_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.LayerNorm

open Idealize.ShloMosaic

namespace Finite

/-- The pattern `0x7F800000` (sign 0, exponent all ones, fraction 0) denotes `+∞`. -/
theorem posInf_bits : Ideal.ofBits .f32 0x7F800000#32 = (⊤ : EReal) := by
  simp [Ideal.ofBits, Ideal.ieee]

/-- An extended real whose absolute value `max a (-a)` is strictly below `+∞` is a real: at `⊥` the
    absolute value is `max ⊥ ⊤ = ⊤`, at `⊤` it is `⊤`, and neither is below `⊤`. -/
theorem real_of_abs_lt (a : EReal) (h : max a (-a) < (⊤ : EReal)) : ∃ r : ℝ, a = (r : EReal) := by
  induction a using EReal.rec with
  | bot => simp at h
  | coe r => exact ⟨r, rfl⟩
  | top => simp at h

/-- The same, read off the comparison word: `|a| < +∞` evaluating to 1 makes `a` a real. -/
theorem real_of_cmp (a : Ideal .f32)
    (h : FloatOps.cmpf .olt (FloatOps.hostAbsf a) (FloatOps.ofBits (F := Ideal) .f32 0x7F800000#32) = 1#1) :
    ∃ r : ℝ, a = (r : EReal) := by
  rw [Ideal.ofBits_def, posInf_bits, Ideal.hostAbsf_def, Ideal.absf_def, Ideal.cmpf_def] at h
  refine real_of_abs_lt a ?_
  -- were the strict inequality false, the comparison word would be 0, not 1
  by_contra hn
  simp only [Ideal.cmp, hn, decide_false] at h
  exact absurd h (by decide)

end Finite

/-- From the finiteness predicate to "every entry of the first two arrays is a real". -/
theorem real_of_pre [Cert.Pre_finite_inputs.Facts]
    (x : FVec Ideal Cert.Pre_finite_inputs.S4x4096x1024 .f32) (p : FVec Ideal Cert.Pre_finite_inputs.S8192x1024 .f32)
    (g b : FVec Ideal Cert.Pre_finite_inputs.S1024 .f32)
    (h : Cert.Pre_finite_inputs.fn (F := Ideal) x p g b = fun _ => 1#1) :
    (∀ i, ∃ r : ℝ, x i = (r : EReal)) ∧ (∀ i, ∃ r : ℝ, p i = (r : EReal)) := by
  -- the rank-0 result has a single index
  haveI : Subsingleton Cert.Pre_finite_inputs.S_.Idx := ⟨fun a b => funext fun d => d.elim0⟩
  -- the predicate at its one index: a conjunction (by `and`) of four reductions by `and` over all axes
  have h0 := congrFun h ValueIdx.ix0
  dsimp only [Cert.Pre_finite_inputs.fn, Cert.Pre_finite_inputs.fn_part1] at h0
  dsimp only [andi] at h0
  rw [IntOp.andi_eq_one, IntOp.andi_eq_one, IntOp.andi_eq_one] at h0
  obtain ⟨⟨⟨hx, hp⟩, -⟩, -⟩ := h0
  -- a reduction by `and` over all axes that is 1 had a 1 at every entry; the entry's word is the comparison
  -- `|x i| < +∞` (the broadcast scalar constant reads as the constant at every index)
  exact ⟨fun i => Finite.real_of_cmp (x i) (Host.reduce_andi_all _ _ _ _ _ hx i),
    fun i => Finite.real_of_cmp (p i) (Host.reduce_andi_all _ _ _ _ _ hp i)⟩

end Cert.LayerNorm

end
-- ==== Proof.LibColumn.lean ====
/-
  Column vectors read at an index given by coordinates.

  A sum or maximum taken with `keepdims` leaves a column `[a, 1]`, which is then spread over the lanes. These three
  readings complete the library's list of small layout forms (leading unit axes, one row spread over many rows)
  with the column ones: a vector `[a]` viewed as a column, a row `[1, a]` viewed as a column, and a column `[a, 1]`
  spread to `[a, b]`. Each is the general lemma for its operation with the coordinate arithmetic done: a shape cast
  keeps the row-major position, and a broadcast reads coordinate 0 on a unit axis.
-/
import Idealize.ShloMosaic.Lib.ValueLayout

namespace Cert.LibColumn

open Idealize.ShloMosaic Idealize.ShloMosaic.ValueIdx

variable {α : Type}

/-- An `[a]` vector cast to an `[a, 1]` column reads, at `(i, u)`, the vector at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, a]` row cast to an `[a, 1]` column reads, at `(i, u)`, the row at `(0, i)`. -/
theorem shapeCast_1a_a1_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- An `[a, 1]` column broadcast to `[a, b]` reads, at `(p, c)`, the column at `p`: every lane of a row holds the row's one
    entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelPayload.lean ====
/-
  What the kernel's body stores, read at one entry of the block: at row `r` and lane `d` the stored value is
  entry `d` of the normalisation of row `r` of the sum of the two loaded blocks, in the kernel's arrangement
  (variance as mean of squares less squared mean, multiplication by the reciprocal root), scaled and shifted by
  lane `d` of the two loaded rows. The row sums are lane reductions kept as columns and spread back over the lanes.
-/
import proofs.«102654_g70497593197500_cont_sun_m_265_14_alg».proof.Proof.Gen.KernelIdeal.Skeleton
import proofs.«102654_g70497593197500_cont_sun_m_265_14_alg».proof.Proof.Spec
import proofs.«102654_g70497593197500_cont_sun_m_265_14_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.LN

open Cert.KernelIdeal Idealize.ShloMosaic Idealize.ShloMosaic.ValueIdx Cert.LayerNorm

/-- The index a lane reduction inserts: row `r`, lane `k`. -/
theorem lift_row (r : Fin 2048) (k : Fin 1024) :
    Gen.reduces_S2048x1024_S2048.lift (ix1 r) k = ix2 r k := by
  funext a; apply Fin.ext
  match a with
  | ⟨0, _⟩ => rfl
  | ⟨1, _⟩ => rfl

/-- A lane sum kept as a column, read at row `r`: the sum of the row's 1024 entries. -/
theorem rowsum_apply (v : FVec Ideal S2048x1024 .f32) (r : Fin 2048) (u : Fin 1) :
    shapeCast S2048x1 (multiReduction (F := Ideal) .add [1] S2048 v 0x00000000#32 Gen.reduces_S2048x1024_S2048 (.inl rfl) rfl)
        Gen.shapeCasts_S2048_S2048x1 (ix2 r u)
      = ∑ k : Fin 1024, v (ix2 r k) := by
  rw [Cert.LibColumn.shapeCast_a_a1_apply]
  refine (Ideal.multiReduction_add_single v _ Gen.reduces_S2048x1024_S2048 (.inl rfl) rfl (ix1 r)).trans ?_
  exact Finset.sum_congr rfl fun k _ => congrArg v (lift_row r k)

/-- The reciprocal root of a vector is taken entry by entry. -/
theorem rsqrt_apply {s : Shape} (a : FVec Ideal s .f32) (i : s.Idx) : rsqrt a i = Ideal.rsqrt (a i) := rfl

/-- THE STORED VALUE at row `r`, lane `d`. -/
theorem pay_apply (v0 v2 : Vec Ideal S2048x1024 .f32) (v22 v26 : Vec Ideal S1x1024 .f32) (r : Fin 2048) (d : Fin 1024) :
    Gen.k0_pay1 (F := Ideal) v0 v2 v22 v26 (ix2 r d)
      = rowK (fun k : Fin 1024 => v0 (ix2 r k) + v2 (ix2 r k)) (v0 (ix2 r d) + v2 (ix2 r d))
          (v22 (ix2 (0 : Fin 1) d)) (v26 (ix2 (0 : Fin 1) d)) := by
  unfold Gen.k0_pay1
  simp only [shapeCast_self, addf_apply, mulf_apply, subf_apply, divf_apply, rsqrt_apply, broadcast_apply,
    Cert.LibColumn.broadcastTo_a1_ab_apply, broadcastTo_1b_ab_apply, rowsum_apply, Ideal.ofBits_def]
  rw [rowsum_apply (addf v0 v2) r 0, rowsum_apply (mulf (addf v0 v2) (addf v0 v2)) r 0]
  simp only [addf_apply, mulf_apply]
  rfl

end Cert.KernelIdeal.LN

end
-- ==== Proof.KernelValue.lean ====
/-
  What the kernel's result array holds after the run. The embeddings are viewed as 16384 rows; the grid's point
  (j, b) works on the 2048 rows of block `2·b + j` of that view and on block `j` of the position table, so flat
  row `R` meets table row `R mod 4096`; every point stores its whole block and the eight blocks tile the array.
  So the array ends as ONE function of the arrays the region finds: each row normalised in the kernel's
  arrangement. The view back to [4, 4096, 1024] then reads flat row `4096·b + s` at (b, s), whose table row is `s`.
-/
import proofs.«102654_g70497593197500_cont_sun_m_265_14_alg».proof.Proof.Gen.KernelIdeal.Frame
import proofs.«102654_g70497593197500_cont_sun_m_265_14_alg».proof.Proof.KernelPayload
import Idealize.ShloMosaic.Lib.Pipeline.Value
import Idealize.ShloMosaic.Lib.StableHlo.Run
import Idealize.ShloMosaic.Lib.ValueLayout

set_option maxRecDepth 16384

noncomputable section

namespace Cert.KernelIdeal.LN

open Cert.KernelIdeal Cert.KernelIdeal.Gen Idealize.ShloMosaic Idealize.ShloMosaic.TcCoe Idealize.ShloMosaic.ValueIdx
open Idealize.SL.Sem Cert.LayerNorm
open Idealize.ShloMosaic.Pipeline (Dat Cfg Window)

variable (m : (ℓ : Loc nD τ sig) → Buf (Elt Ideal) ℓ) (ρ : Dev nD → PrngReg)

/-- The position-table row that flat row `R` of the embeddings meets. -/
def prow (R : Fin 16384) : Fin 8192 := ⟨R.val % 4096, by omega⟩

/-- The flat result: row `R` normalised in the kernel's arrangement, from the flat embeddings `A0`, the table `A1`
    and the scale and shift as rows `A2`, `A3`. -/
def Gflat (A0 : S16384x1024.Idx → EReal) (A1 : S8192x1024.Idx → EReal) (A2 A3 : S1x1024.Idx → EReal) :
    S16384x1024.Idx → EReal := fun i =>
  rowK (fun k : Fin 1024 => A0 (ix2 (i 0) k) + A1 (ix2 (prow (i 0)) k))
    (A0 (ix2 (i 0) (i 1)) + A1 (ix2 (prow (i 0)) (i 1))) (A2 (ix2 (0 : Fin 1) (i 1))) (A3 (ix2 (0 : Fin 1) (i 1)))

theorem hz : (![0, 0] : Fin 2 → Nat) = fun _ => 0 := funext fun a => by fin_cases a <;> rfl

/-- The printed index maps over the grid: the embeddings' block moves with the result's, the table's block is the
    result's block index mod 2, the scale and shift rows stay put, and the result's blocks are the eight of the array. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) % 2 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 7 ∧ win0_4.index t (1 : Fin 2) = 0 :=
  (by decide +kernel : ∀ t : Fin grid0.N, _)

/-- Every one of the eight blocks is some point's. -/
theorem idx_onto : ∀ q : Fin 8, ∃ t : Fin cfg0.N, win0_4.index t = ![q.val, 0] :=
  (by decide +kernel : ∀ q : Fin 8, ∃ t : Fin grid0.N, win0_4.index t = ![q.val, 0])

/-- WHAT POINT `t` WRITES BACK is block `t` of the flat result of the arrays as the region finds them. -/
theorem flushed_eq (c : Dev nD) (t : Fin cfg0.N) :
    (dats m 0 c).flushed 4 t = ((cfg0.win 4).blk t).view.read (Elt Ideal)
      (Gflat (V m c main_v0) (V m c main_arg1) (V m c main_v1) (V m c main_v2)) := by
  show (cfg0.win 4).cut (grid0.coords t) ((dats m 0 c).after 4 t) = _
  rw [after0_4]
  unfold out0_4
  rw [View.canon_unit_zero hz]
  simp only [View.ld_unit_zero (S := S2048x1024) hz, View.ld_unit_zero (S := S1x1024) hz]
  obtain ⟨e0, e1, e2, e3, e4, e5, e6, e7, e8, e9⟩ := idx_facts t
  funext j
  obtain ⟨r, d, rfl⟩ : ∃ (r : Fin 2048) (d : Fin 1024), j = ix2 r d := ⟨j 0, j 1, eq_ix2 j⟩
  have hr : r.val < 2048 := r.isLt
  have hd : d.val < 1024 := d.isLt
  show k0_pay1 (F := Ideal) (iblk m c 0 t) (iblk m c 1 t) (iblk m c 2 t) (iblk m c 3 t) (ix2 r d)
      = Gflat (V m c main_v0) (V m c main_arg1) (V m c main_v1) (V m c main_v2) (((cfg0.win 4).blk t).view.emb (ix2 r d))
  refine (pay_apply _ _ _ _ r d).trans ?_
  -- the flat row this block row is
  have hR : win0_4.index t (0 : Fin 2) * 2048 + r.val < 16384 := by omega
  have hb0 : ∀ k : Fin 1024, iblk m c 0 t (ix2 r k) = V m c main_v0 (ix2 (⟨win0_4.index t (0 : Fin 2) * 2048 + r.val, hR⟩ : Fin 16384) k) := by
    intro k
    show V m c main_v0 (((cfg0.win 0).blk t).view.emb (ix2 r k)) = _
    refine congrArg (V m c main_v0) ?_
    funext a; apply Fin.ext
    match a with
    | ⟨0, _⟩ => show win0_0.index t (0 : Fin 2) * 2048 + 1 * r.val = win0_4.index t (0 : Fin 2) * 2048 + r.val; omega
    | ⟨1, _⟩ => show win0_0.index t (1 : Fin 2) * 1024 + 1 * k.val = k.val; omega
  have hb1 : ∀ k : Fin 1024, iblk m c 1 t (ix2 r k) = V m c main_arg1 (ix2 (prow ⟨win0_4.index t (0 : Fin 2) * 2048 + r.val, hR⟩) k) := by
    intro k
    show V m c main_arg1 (((cfg0.win 1).blk t).view.emb (ix2 r k)) = _
    refine congrArg (V m c main_arg1) ?_
    funext a; apply Fin.ext
    match a with
    | ⟨0, _⟩ => show win0_1.index t (0 : Fin 2) * 2048 + 1 * r.val = (win0_4.index t (0 : Fin 2) * 2048 + r.val) % 4096; omega
    | ⟨1, _⟩ => show win0_1.index t (1 : Fin 2) * 1024 + 1 * k.val = k.val; omega
  have hb2 : iblk m c 2 t (ix2 (0 : Fin 1) d) = V m c main_v1 (ix2 (0 : Fin 1) d) := by
    show V m c main_v1 (((cfg0.win 2).blk t).view.emb (ix2 (0 : Fin 1) d)) = _
    refine congrArg (V m c main_v1) ?_
    funext a; apply Fin.ext
    match a with
    | ⟨0, _⟩ => show win0_2.index t (0 : Fin 2) * 1 + 1 * 0 = 0; omega
    | ⟨1, _⟩ => show win0_2.index t (1 : Fin 2) * 1024 + 1 * d.val = d.val; omega
  have hb3 : iblk m c 3 t (ix2 (0 : Fin 1) d) = V m c main_v2 (ix2 (0 : Fin 1) d) := by
    show V m c main_v2 (((cfg0.win 3).blk t).view.emb (ix2 (0 : Fin 1) d)) = _
    refine congrArg (V m c main_v2) ?_
    funext a; apply Fin.ext
    match a with
    | ⟨0, _⟩ => show win0_3.index t (0 : Fin 2) * 1 + 1 * 0 = 0; omega
    | ⟨1, _⟩ => show win0_3.index t (1 : Fin 2) * 1024 + 1 * d.val = d.val; omega
  have hemb : ((cfg0.win 4).blk t).view.emb (ix2 r d) = ix2 (⟨win0_4.index t (0 : Fin 2) * 2048 + r.val, hR⟩ : Fin 16384) d := by
    funext a; apply Fin.ext
    match a with
    | ⟨0, _⟩ => show win0_4.index t (0 : Fin 2) * 2048 + 1 * r.val = win0_4.index t (0 : Fin 2) * 2048 + r.val; omega
    | ⟨1, _⟩ => show win0_4.index t (1 : Fin 2) * 1024 + 1 * d.val = d.val; omega
  rw [hemb]
  simp only [hb0, hb1, hb2, hb3]
  rfl

/-- An index of the array is in point `t`'s block iff each coordinate is in the block's range on its axis. -/
theorem mem_blk (t : Fin cfg0.N) (i : S16384x1024.Idx) :
    i ∈ ((cfg0.win 4).blk t).view.set ↔ ∀ a : Fin 2, win0_4.index t a * S2048x1024.size a ≤ (i a).val
      ∧ (i a).val < win0_4.index t a * S2048x1024.size a + S2048x1024.size a := by
  show i ∈ ((View.whole main_v3).slice (win0_4.rect t)).set ↔ _
  rw [View.set_slice_whole, Rect.mem_set_unit]
  exact Iff.rfl

/-- The eight blocks tile the array: row `R` lies in block `R / 2048`. -/
theorem cover (i : S16384x1024.Idx) :
    ∃ t : Fin cfg0.N, (cfg0.win 4).flush t = true ∧ i ∈ ((cfg0.win 4).blk t).view.set := by
  have hi0 : (i 0).val < 16384 := (i 0).isLt
  have hi1 : (i 1).val < 1024 := (i 1).isLt
  obtain ⟨t, ht⟩ := idx_onto ⟨(i 0).val / 2048, by omega⟩
  have q0 : win0_4.index t (0 : Fin 2) = (i 0).val / 2048 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 1024 ≤ (i 1).val ∧ (i 1).val < win0_4.index t (1 : Fin 2) * 1024 + 1024; omega

/-- THE ARRAY after the run: the flat result of the arrays as the region finds them. -/
theorem final (c : Dev nD) : (dats m 0 c).arrAt 4 cfg0.N
    = Gflat (V m c main_v0) (V m c main_arg1) (V m c main_v1) (V m c main_v2) :=
  (dats m 0 c).arrAt_eq_of_cover 4 _ (fun t _ => flushed_eq m c t) cover

/-! ## The views before and after the region -/

/-- The region finds the embeddings viewed as 16384 rows, -/
theorem V_v0 (c : Dev nD) : (V m c main_v0 : S16384x1024.Idx → EReal)
    = shapeCast S16384x1024 (m ((c : Thread nD τ).loc main_arg0)) Gen.shapeCasts_S4x4096x1024_S16384x1024 := by
  show StableHlo.after hostOps0 (fun b => m (c, b)) (Proc.devRef .tc main_v0) = _
  after_results
  rfl
/-- the scale as one row, -/
theorem V_v1 (c : Dev nD) : (V m c main_v1 : S1x1024.Idx → EReal)
    = shapeCast S1x1024 (m ((c : Thread nD τ).loc main_arg2)) Gen.shapeCasts_S1024_S1x1024 := by
  show StableHlo.after hostOps0 (fun b => m (c, b)) (Proc.devRef .tc main_v1) = _
  after_results
  rfl
/-- and the shift as one row. -/
theorem V_v2 (c : Dev nD) : (V m c main_v2 : S1x1024.Idx → EReal)
    = shapeCast S1x1024 (m ((c : Thread nD τ).loc main_arg3)) Gen.shapeCasts_S1024_S1x1024 := by
  show StableHlo.after hostOps0 (fun b => m (c, b)) (Proc.devRef .tc main_v2) = _
  after_results
  rfl

/-- The program's result is the array the region wrote, viewed as [4, 4096, 1024]. -/
theorem tail_v4 (c : Dev nD) : Pipeline.afterTail₀ cfgs (dats m) 0 (V0 m) [hostOps1] c main_v4
    = shapeCast S4x4096x1024 ((dats m 0 c).arrAt 4 cfg0.N) Gen.shapeCasts_S16384x1024_S4x4096x1024 := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.tc.devRef main_v3)
      = (dats m 0 c).arrAt 4 cfg0.N := Pipeline.withArrays_arr spec0 launch0.win.arr_inj c _ _ 4
  rw [hw]
  rfl

/-! ## The result, index by index -/

/-- [4, 4096, 1024] viewed as [16384, 1024], read at flat row `4096·b + s`. -/
theorem flat_apply {α : Type} (x : S4x4096x1024.Idx → α) (h : S4x4096x1024.ShapeCasts S16384x1024)
    (bi : Fin 4) (s : Fin 4096) (k : Fin 1024) (hR : bi.val * 4096 + s.val < 16384) :
    shapeCast S16384x1024 x h (ix2 (⟨bi.val * 4096 + s.val, hR⟩ : Fin 16384) k) = x (ix3 bi s k) :=
  shapeCast_apply x h _ _ (by rw [Shape.rowMajor_val_two, Shape.rowMajor_val_three]; rfl)

/-- [16384, 1024] viewed as [4, 4096, 1024], read at (b, s). -/
theorem unflat_apply {α : Type} (y : S16384x1024.Idx → α) (h : S16384x1024.ShapeCasts S4x4096x1024)
    (bi : Fin 4) (s : Fin 4096) (d : Fin 1024) (hR : bi.val * 4096 + s.val < 16384) :
    shapeCast S4x4096x1024 y h (ix3 bi s d) = y (ix2 (⟨bi.val * 4096 + s.val, hR⟩ : Fin 16384) d) :=
  shapeCast_apply y h _ _ (by rw [Shape.rowMajor_val_two, Shape.rowMajor_val_three]; rfl)

/-- Flat row `4096·b + s` meets table row `s`. -/
theorem prow_flat (bi : Fin 4) (s : Fin 4096) (hR : bi.val * 4096 + s.val < 16384) :
    prow ⟨bi.val * 4096 + s.val, hR⟩ = posRow s :=
  Fin.ext (by show (bi.val * 4096 + s.val) % 4096 = s.val; have := s.isLt; omega)

/-- The flat result of the viewed arguments, viewed back, is the specification in the kernel's arrangement. -/
theorem result_at (x : S4x4096x1024.Idx → EReal) (p : S8192x1024.Idx → EReal) (g b : S1024.Idx → EReal) :
    shapeCast S4x4096x1024
        (Gflat (shapeCast S16384x1024 x Gen.shapeCasts_S4x4096x1024_S16384x1024) p
          (shapeCast S1x1024 g Gen.shapeCasts_S1024_S1x1024) (shapeCast S1x1024 b Gen.shapeCasts_S1024_S1x1024))
        Gen.shapeCasts_S16384x1024_S4x4096x1024
      = GK x p g b := by
  funext i
  obtain ⟨bi, s, d, rfl⟩ : ∃ (bi : Fin 4) (s : Fin 4096) (d : Fin 1024), i = ix3 bi s d := ⟨i 0, i 1, i 2, eq_ix3 i⟩
  have hR : bi.val * 4096 + s.val < 16384 := by have := bi.isLt; have := s.isLt; omega
  rw [unflat_apply _ _ bi s d hR]
  show rowK (fun k : Fin 1024 => shapeCast S16384x1024 x _ (ix2 (⟨bi.val * 4096 + s.val, hR⟩ : Fin 16384) k)
        + p (ix2 (prow ⟨bi.val * 4096 + s.val, hR⟩) k))
      (shapeCast S16384x1024 x _ (ix2 (⟨bi.val * 4096 + s.val, hR⟩ : Fin 16384) d)
        + p (ix2 (prow ⟨bi.val * 4096 + s.val, hR⟩) d))
      (shapeCast S1x1024 g _ (ix2 (0 : Fin 1) d))
      (shapeCast S1x1024 b _ (ix2 (0 : Fin 1) d)) = _
  simp only [flat_apply _ _ bi s _ hR, prow_flat bi s hR, shapeCast_a_1a_apply]
  rfl

/-- The program's result is the specification in the kernel's arrangement. -/
theorem result_eq (c : Dev nD) : Pipeline.afterTail₀ cfgs (dats m) 0 (V0 m) [hostOps1] c main_v4
    = GK (m ((c : Thread nD τ).loc main_arg0)) (m ((c : Thread nD τ).loc main_arg1))
        (m ((c : Thread nD τ).loc main_arg2)) (m ((c : Thread nD τ).loc main_arg3)) := by
  rw [tail_v4, final, V_v0, V_v1, V_v2, V_main_arg1]
  exact result_at _ _ _ _

/-! ## The run, read -/

/-- Every weakly fair execution of the idealized kernel's @main ends with the result at the specification in the
    kernel's arrangement, and with the four arguments as launched. -/
theorem run : θ_run defs (onTc (τ := τ) (main (F := Ideal))) ⟨m, fun _ => 0, ρ⟩ fun r => ∀ c : Dev nD,
      r.2.mem ((c.tc : Thread nD τ).loc main_v4)
        = GK (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.LN

end
-- ==== Proof.RefTerm.lean ====
/-
  The reference's result as one term of its four argument arrays: the rows the position ids 0 … 4095 take out of
  the position table (an index below zero would be wrapped by the table's length, an index outside the table would
  read as a filler; neither happens for these ids), broadcast over the batch and added to the embeddings, then
  the layer normalisation of every row: mean, centred squares' mean, division by the root, scale and shift.
-/
import proofs.«102654_g70497593197500_cont_sun_m_265_14_alg».proof.ReferenceIdeal

noncomputable section

namespace Cert.ReferenceIdeal.LN

open Cert.ReferenceIdeal Idealize.ShloMosaic
open Cert.ReferenceIdeal.Facts₀ Cert.ReferenceIdeal.Facts

variable {F : FTy → Type} [FloatOps F] [Facts]

/-- The row ids the lookup uses: the ids 0 … 4095, an id below zero moved up by the table's length. -/
def takeIdx : IVec S4096x1 32 :=
  let io : IVec S4096 32 := iotaInDim S4096 32 0
  let c : IVec S_ 32 := constantI S_ 32 0#32
  let v0 : IVec S4096 32 := broadcastInDim S4096 ![] bcast_S_S4096 c
  let v1 : IVec S4096 1 := cmpi .slt io v0
  let c_0 : IVec S_ 32 := constantI S_ 32 8192#32
  let v2 : IVec S4096 32 := broadcastInDim S4096 ![] bcast_S_S4096 c_0
  let v3 : IVec S4096 32 := addi io v2
  let v4 : IVec S4096 32 := select v1 v3 io
  broadcastInDim S4096x1 ![0] bcast_S4096_S4096x1_0 v4

/-- Which of those ids lie inside the table: all of them, as it turns out. -/
def takeMask : IVec S4096 1 :=
  let v5 : IVec S4096x1 32 := takeIdx
  let c_1 : IVec S1 32 := constantI S1 32 8191#32
  let c_2 : IVec S_ 32 := constantI S_ 32 0#32
  let v6 : IVec S4096x1 32 := broadcastInDim S4096x1 ![] bcast_S_S4096x1 c_2
  let v7 : IVec S4096x1 1 := cmpi .sge v5 v6
  let v8 : IVec S1x1 32 := broadcastInDim S1x1 ![1] bcast_S1_S1x1_1 c_1
  let v9 : IVec S4096x1 32 := broadcastInDim S4096x1 ![0, 1] bcast_S1x1_S4096x1_0_1 v8
  let v10 : IVec S4096x1 1 := cmpi .sle v5 v9
  let v11 : IVec S4096x1 1 := andi v7 v10
  let c_3 : IVec S_ 1 := constantI S_ 1 1#1
  Host.reduce IntOp.andi v11 c_3 reducesTo_S4096x1_S4096_d1 h_S_

/-- The looked-up rows: the gathered row where the id is inside the table, a filler elsewhere. -/
def takeTerm (p : FVec F S8192x1024 .f32) : FVec F S4096x1024 .f32 :=
  let v13 : FVec F S4096x1024 .f32 := Host.gather gather_S8192x1024_S4096x1_S4096x1024_1_0_n_n_0_1_11024 p takeIdx
  let v14 : IVec S4096x1024 1 := broadcastInDim S4096x1024 ![0] bcast_S4096_S4096x1024_0 takeMask
  let cst : FVec F S_ .f32 := constant S_ .f32 0x7FC00000#32
  let v15 : FVec F S4096x1024 .f32 := broadcastInDim S4096x1024 ![] bcast_S_S4096x1024 cst
  select v14 v13 v15

/-- The layer normalisation of every row of `e`, scaled by `g` and shifted by `b` along the last axis. -/
def lnTerm (e : FVec F S4x4096x1024 .f32) (g b : FVec F S1024 .f32) : FVec F S4x4096x1024 .f32 :=
  let cst : FVec F S_ .f32 := constant S_ .f32 0x00000000#32
  let v5 : FVec F S4x4096 .f32 := Host.reduceAdd e cst reducesTo_S4x4096x1024_S4x4096_d2 h_S_
  let v6 : FVec F S4x4096x1 .f32 := broadcastInDim S4x4096x1 ![0, 1] bcast_S4x4096_S4x4096x1_0_1 v5
  let cst_0 : FVec F S_ .f32 := constant S_ .f32 0x44800000#32
  let v7 : FVec F S4x4096x1 .f32 := broadcastInDim S4x4096x1 ![] bcast_S_S4x4096x1 cst_0
  let v8 : FVec F S4x4096x1 .f32 := Host.divf v6 v7
  let v9 : FVec F S4x4096x1024 .f32 := broadcastInDim S4x4096x1024 ![0, 1, 2] bcast_S4x4096x1_S4x4096x1024_0_1_2 v8
  let v10 : FVec F S4x4096x1024 .f32 := subf e v9
  let v11 : FVec F S4x4096x1024 .f32 := mulf v10 v10
  let cst_1 : FVec F S_ .f32 := constant S_ .f32 0x00000000#32
  let v12 : FVec F S4x4096 .f32 := Host.reduceAdd v11 cst_1 reducesTo_S4x4096x1024_S4x4096_d2 h_S_
  let v13 : FVec F S4x4096x1 .f32 := broadcastInDim S4x4096x1 ![0, 1] bcast_S4x4096_S4x4096x1_0_1 v12
  let cst_2 : FVec F S_ .f32 := constant S_ .f32 0x44800000#32
  let v14 : FVec F S4x4096x1 .f32 := broadcastInDim S4x4096x1 ![] bcast_S_S4x4096x1 cst_2
  let v15 : FVec F S4x4096x1 .f32 := Host.divf v13 v14
  let v16 : FVec F S4x4096x1024 .f32 := broadcastInDim S4x4096x1024 ![0, 1, 2] bcast_S4x4096x1_S4x4096x1024_0_1_2 v8
  let v17 : FVec F S4x4096x1024 .f32 := subf e v16
  let cst_3 : FVec F S_ .f32 := constant S_ .f32 0x2B8CBCCC#32
  let v18 : FVec F S4x4096x1 .f32 := broadcastInDim S4x4096x1 ![] bcast_S_S4x4096x1 cst_3
  let v19 : FVec F S4x4096x1 .f32 := addf v15 v18
  let v20 : FVec F S4x4096x1 .f32 := Host.sqrt v19
  let v21 : FVec F S4x4096x1024 .f32 := broadcastInDim S4x4096x1024 ![0, 1, 2] bcast_S4x4096x1_S4x4096x1024_0_1_2 v20
  let v22 : FVec F S4x4096x1024 .f32 := Host.divf v17 v21
  let v23 : FVec F S1x1x1024 .f32 := broadcastInDim S1x1x1024 ![2] bcast_S1024_S1x1x1024_2 g
  let v24 : FVec F S4x4096x1024 .f32 := broadcastInDim S4x4096x1024 ![0, 1, 2] bcast_S1x1x1024_S4x4096x1024_0_1_2 v23
  let v25 : FVec F S4x4096x1024 .f32 := mulf v22 v24
  let v26 : FVec F S1x1x1024 .f32 := broadcastInDim S1x1x1024 ![2] bcast_S1024_S1x1x1024_2 b
  let v27 : FVec F S4x4096x1024 .f32 := broadcastInDim S4x4096x1024 ![0, 1, 2] bcast_S1x1x1024_S4x4096x1024_0_1_2 v26
  addf v25 v27

/-- The reference's result. -/
def refTerm (x : FVec F S4x4096x1024 .f32) (p : FVec F S8192x1024 .f32) (g b : FVec F S1024 .f32) : FVec F S4x4096x1024 .f32 :=
  let v1 : FVec F S4096x1024 .f32 := takeTerm p
  let v2 : FVec F S1x4096x1024 .f32 := broadcastInDim S1x4096x1024 ![1, 2] bcast_S4096x1024_S1x4096x1024_1_2 v1
  let v3 : FVec F S4x4096x1024 .f32 := broadcastInDim S4x4096x1024 ![0, 1, 2] bcast_S1x4096x1024_S4x4096x1024_0_1_2 v2
  lnTerm (addf x v3) g b

end Cert.ReferenceIdeal.LN

end
-- ==== Proof.RefRun.lean ====
/-
  The reference's run: its @main is a straight line of host operations (the lookup's and the selection's
  operations in line where they are called), so every weakly fair execution ends with the result array at the
  operations' composed term of the four argument arrays, and with those arrays unchanged.
-/
import proofs.«102654_g70497593197500_cont_sun_m_265_14_alg».proof.Proof.RefTerm
import proofs.«102654_g70497593197500_cont_sun_m_265_14_alg».proof.Proof.Gen.ReferenceIdeal
import Idealize.ShloMosaic.Lib.StableHlo.Run

noncomputable section

namespace Cert.ReferenceIdeal.LN

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the two calls unfolded: the ids 0 … 4095; the lookup's twenty-three (an id below
    zero moved up by the table's length — the selection is the inner call's one operation —, the ids as a column,
    the test that each lies inside the table, the gathered rows, and the choice between a row and the filler); then
    the thirty-two of the sum with the embeddings and of the row normalisation. -/
abbrev ops : List (HloOp τ sig (Elt F)) :=
  [ nullary main_v0 (iotaInDim S4096 32 0),
    TRef.nullary main_call0.c (constantI S_ 32 0#32),
    TRef.unary main_call0.c main_call0.v0 (broadcastInDim S4096 ![] bcast_S_S4096),
    TRef.binary (.of main_v0 : TRef sig ⟨S4096, .i32⟩) main_call0.v0 main_call0.v1 (cmpi .slt),
    TRef.nullary main_call0.c_0 (constantI S_ 32 8192#32),
    TRef.unary main_call0.c_0 main_call0.v2 (broadcastInDim S4096 ![] bcast_S_S4096),
    TRef.binary (.of main_v0 : TRef sig ⟨S4096, .i32⟩) main_call0.v2 main_call0.v3 addi,
    TRef.ternary main_call0.v1 main_call0.v3 (.of main_v0 : TRef sig ⟨S4096, .i32⟩) main_call0.call0.v0 select,
    TRef.unary main_call0.call0.v0 main_call0.v5 (broadcastInDim S4096x1 ![0] bcast_S4096_S4096x1_0),
    TRef.nullary main_call0.c_1 (constantI S1 32 8191#32),
    TRef.nullary main_call0.c_2 (constantI S_ 32 0#32),
    TRef.unary main_call0.c_2 main_call0.v6 (broadcastInDim S4096x1 ![] bcast_S_S4096x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4096x1 ![0, 1] bcast_S1x1_S4096x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x1_S4096_d1 h_S_),
    TRef.binary (.of main_arg1 : TRef sig ⟨S8192x1024, .f32⟩) main_call0.v5 main_call0.v13 (fun x i => Host.gather gather_S8192x1024_S4096x1_S4096x1024_1_0_n_n_0_1_11024 x i),
    TRef.unary main_call0.v12 main_call0.v14 (broadcastInDim S4096x1024 ![0] bcast_S4096_S4096x1024_0),
    TRef.nullary main_call0.cst (constant S_ .f32 0x7FC00000#32),
    TRef.unary main_call0.cst main_call0.v15 (broadcastInDim S4096x1024 ![] bcast_S_S4096x1024),
    TRef.ternary main_call0.v14 main_call0.v13 main_call0.v15 main_call0.v16 select,
    unary main_v1 main_v2 (broadcastInDim S1x4096x1024 ![1, 2] bcast_S4096x1024_S1x4096x1024_1_2 : (⟨S4096x1024, .f32⟩ : BufTy).Contents (Elt F) → (⟨S1x4096x1024, .f32⟩ : BufTy).Contents (Elt F)),
    unary main_v2 main_v3 (broadcastInDim S4x4096x1024 ![0, 1, 2] bcast_S1x4096x1024_S4x4096x1024_0_1_2 : (⟨S1x4096x1024, .f32⟩ : BufTy).Contents (Elt F) → (⟨S4x4096x1024, .f32⟩ : BufTy).Contents (Elt F)),
    binary main_arg0 main_v3 main_v4 (addf : (⟨S4x4096x1024, .f32⟩ : BufTy).Contents (Elt F) → (⟨S4x4096x1024, .f32⟩ : BufTy).Contents (Elt F) → (⟨S4x4096x1024, .f32⟩ : BufTy).Contents (Elt F)),
    nullary main_cst (constant S_ .f32 0x00000000#32),
    binary main_v4 main_cst main_v5 ((fun x v => Host.reduceAdd x v reducesTo_S4x4096x1024_S4x4096_d2 h_S_) : (⟨S4x4096x1024, .f32⟩ : BufTy).Contents (Elt F) → (⟨S_, .f32⟩ : BufTy).Contents (Elt F) → (⟨S4x4096, .f32⟩ : BufTy).Contents (Elt F)),
    unary main_v5 main_v6 (broadcastInDim S4x4096x1 ![0, 1] bcast_S4x4096_S4x4096x1_0_1 : (⟨S4x4096, .f32⟩ : BufTy).Contents (Elt F) → (⟨S4x4096x1, .f32⟩ : BufTy).Contents (Elt F)),
    nullary main_cst_0 (constant S_ .f32 0x44800000#32),
    unary main_cst_0 main_v7 (broadcastInDim S4x4096x1 ![] bcast_S_S4x4096x1 : (⟨S_, .f32⟩ : BufTy).Contents (Elt F) → (⟨S4x4096x1, .f32⟩ : BufTy).Contents (Elt F)),
    binary main_v6 main_v7 main_v8 (Host.divf : (⟨S4x4096x1, .f32⟩ : BufTy).Contents (Elt F) → (⟨S4x4096x1, .f32⟩ : BufTy).Contents (Elt F) → (⟨S4x4096x1, .f32⟩ : BufTy).Contents (Elt F)),
    unary main_v8 main_v9 (broadcastInDim S4x4096x1024 ![0, 1, 2] bcast_S4x4096x1_S4x4096x1024_0_1_2 : (⟨S4x4096x1, .f32⟩ : BufTy).Contents (Elt F) → (⟨S4x4096x1024, .f32⟩ : BufTy).Contents (Elt F)),
    binary main_v4 main_v9 main_v10 (subf : (⟨S4x4096x1024, .f32⟩ : BufTy).Contents (Elt F) → (⟨S4x4096x1024, .f32⟩ : BufTy).Contents (Elt F) → (⟨S4x4096x1024, .f32⟩ : BufTy).Contents (Elt F)),
    binary main_v10 main_v10 main_v11 (mulf : (⟨S4x4096x1024, .f32⟩ : BufTy).Contents (Elt F) → (⟨S4x4096x1024, .f32⟩ : BufTy).Contents (Elt F) → (⟨S4x4096x1024, .f32⟩ : BufTy).Contents (Elt F)),
    nullary main_cst_1 (constant S_ .f32 0x00000000#32),
    binary main_v11 main_cst_1 main_v12 ((fun x v => Host.reduceAdd x v reducesTo_S4x4096x1024_S4x4096_d2 h_S_) : (⟨S4x4096x1024, .f32⟩ : BufTy).Contents (Elt F) → (⟨S_, .f32⟩ : BufTy).Contents (Elt F) → (⟨S4x4096, .f32⟩ : BufTy).Contents (Elt F)),
    unary main_v12 main_v13 (broadcastInDim S4x4096x1 ![0, 1] bcast_S4x4096_S4x4096x1_0_1 : (⟨S4x4096, .f32⟩ : BufTy).Contents (Elt F) → (⟨S4x4096x1, .f32⟩ : BufTy).Contents (Elt F)),
    nullary main_cst_2 (constant S_ .f32 0x44800000#32),
    unary main_cst_2 main_v14 (broadcastInDim S4x4096x1 ![] bcast_S_S4x4096x1 : (⟨S_, .f32⟩ : BufTy).Contents (Elt F) → (⟨S4x4096x1, .f32⟩ : BufTy).Contents (Elt F)),
    binary main_v13 main_v14 main_v15 (Host.divf : (⟨S4x4096x1, .f32⟩ : BufTy).Contents (Elt F) → (⟨S4x4096x1, .f32⟩ : BufTy).Contents (Elt F) → (⟨S4x4096x1, .f32⟩ : BufTy).Contents (Elt F)),
    unary main_v8 main_v16 (broadcastInDim S4x4096x1024 ![0, 1, 2] bcast_S4x4096x1_S4x4096x1024_0_1_2 : (⟨S4x4096x1, .f32⟩ : BufTy).Contents (Elt F) → (⟨S4x4096x1024, .f32⟩ : BufTy).Contents (Elt F)),
    binary main_v4 main_v16 main_v17 (subf : (⟨S4x4096x1024, .f32⟩ : BufTy).Contents (Elt F) → (⟨S4x4096x1024, .f32⟩ : BufTy).Contents (Elt F) → (⟨S4x4096x1024, .f32⟩ : BufTy).Contents (Elt F)),
    nullary main_cst_3 (constant S_ .f32 0x2B8CBCCC#32),
    unary main_cst_3 main_v18 (broadcastInDim S4x4096x1 ![] bcast_S_S4x4096x1 : (⟨S_, .f32⟩ : BufTy).Contents (Elt F) → (⟨S4x4096x1, .f32⟩ : BufTy).Contents (Elt F)),
    binary main_v15 main_v18 main_v19 (addf : (⟨S4x4096x1, .f32⟩ : BufTy).Contents (Elt F) → (⟨S4x4096x1, .f32⟩ : BufTy).Contents (Elt F) → (⟨S4x4096x1, .f32⟩ : BufTy).Contents (Elt F)),
    unary main_v19 main_v20 (Host.sqrt : (⟨S4x4096x1, .f32⟩ : BufTy).Contents (Elt F) → (⟨S4x4096x1, .f32⟩ : BufTy).Contents (Elt F)),
    unary main_v20 main_v21 (broadcastInDim S4x4096x1024 ![0, 1, 2] bcast_S4x4096x1_S4x4096x1024_0_1_2 : (⟨S4x4096x1, .f32⟩ : BufTy).Contents (Elt F) → (⟨S4x4096x1024, .f32⟩ : BufTy).Contents (Elt F)),
    binary main_v17 main_v21 main_v22 (Host.divf : (⟨S4x4096x1024, .f32⟩ : BufTy).Contents (Elt F) → (⟨S4x4096x1024, .f32⟩ : BufTy).Contents (Elt F) → (⟨S4x4096x1024, .f32⟩ : BufTy).Contents (Elt F)),
    unary main_arg2 main_v23 (broadcastInDim S1x1x1024 ![2] bcast_S1024_S1x1x1024_2 : (⟨S1024, .f32⟩ : BufTy).Contents (Elt F) → (⟨S1x1x1024, .f32⟩ : BufTy).Contents (Elt F)),
    unary main_v23 main_v24 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    binary main_v22 main_v24 main_v25 (mulf : (⟨S4x4096x1024, .f32⟩ : BufTy).Contents (Elt F) → (⟨S4x4096x1024, .f32⟩ : BufTy).Contents (Elt F) → (⟨S4x4096x1024, .f32⟩ : BufTy).Contents (Elt F)),
    unary main_arg3 main_v26 (broadcastInDim S1x1x1024 ![2] bcast_S1024_S1x1x1024_2 : (⟨S1024, .f32⟩ : BufTy).Contents (Elt F) → (⟨S1x1x1024, .f32⟩ : BufTy).Contents (Elt F)),
    unary main_v26 main_v27 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    binary main_v25 main_v27 main_v28 (addf : (⟨S4x4096x1024, .f32⟩ : BufTy).Contents (Elt F) → (⟨S4x4096x1024, .f32⟩ : BufTy).Contents (Elt F) → (⟨S4x4096x1024, .f32⟩ : BufTy).Contents (Elt F)) ]

-- fifty-six binds re-associated: the rewrite under the chain recurses once per statement
set_option maxRecDepth 2048 in
/-- @main is that straight line: the two functions' definitions unfolded at their calls and the records at their
    fields, both sides are one chain of steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub .., unary_bufs_sub ..,
    nullary_bufs_sub .., unary_bufs_sub .., ternary_bufs_sub .., unary_bufs_sub .., unary_bufs_sub .., binary_bufs_sub .., nullary_bufs_sub ..,
    binary_bufs_sub .., unary_bufs_sub .., nullary_bufs_sub .., unary_bufs_sub .., binary_bufs_sub .., unary_bufs_sub .., binary_bufs_sub ..,
    binary_bufs_sub .., nullary_bufs_sub .., binary_bufs_sub .., unary_bufs_sub .., nullary_bufs_sub .., unary_bufs_sub .., binary_bufs_sub ..,
    unary_bufs_sub .., binary_bufs_sub .., nullary_bufs_sub .., unary_bufs_sub .., binary_bufs_sub .., unary_bufs_sub .., unary_bufs_sub ..,
    binary_bufs_sub .., unary_bufs_sub .., unary_bufs_sub .., binary_bufs_sub .., unary_bufs_sub .., unary_bufs_sub .., binary_bufs_sub ..⟩

attribute [local irreducible] Host.reduce Host.gather Host.reduceAdd in
set_option maxRecDepth 8192 in
set_option maxHeartbeats 400000 in
/-- The fold read at the result array: each operation's result at its own array is its function of the contents of
    its operands' arrays, and at any other array what was there; composed along the line this is the reference's
    term of the four argument arrays (the reductions and the gather are kept folded: the equation never looks
    inside them). -/
theorem out_eq (V : Valuation τ sig (Elt F)) :
    after ops V (main_v28 : DevRef τ sig)
      = refTerm (V (main_arg0 : DevRef τ sig)) (V (main_arg1 : DevRef τ sig)) (V (main_arg2 : DevRef τ sig))
          (V (main_arg3 : DevRef τ sig)) := by
  after_results_simp
  rfl

/-- No operation of the line writes an argument array. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

/-- On every device, from any memory with zero counters: every weakly fair execution of @main terminates with the
    result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28) = refTerm (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v28).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.ReferenceIdeal.LN

end
-- ==== Proof.RefTake.lean ====
/-
  The lookup of the position ids 0 … 4095 in the position table, read at an entry: row `s` of the looked-up rows
  is row `s` of the table. No id is negative, so none is wrapped; every id is at most 8191, so the in-range mask is
  all ones and the filler is never chosen; and the gather's clamp of a start index into the table leaves these ids
  where they are.
-/
import proofs.«102654_g70497593197500_cont_sun_m_265_14_alg».proof.Proof.RefTerm
import Idealize.ShloMosaic.Lib.ValueIdx
import Idealize.ShloMosaic.Lib.StableHlo.Predicate

noncomputable section

namespace Cert.ReferenceIdeal.LN

open Cert.ReferenceIdeal Idealize.ShloMosaic Idealize.ShloMosaic.ValueIdx
open Cert.ReferenceIdeal.Facts₀ Cert.ReferenceIdeal.Facts

variable [Facts]

/-! ## The ids as words -/

/-- The 32-bit word of an id below 4096 has that id as its value: nothing wraps. -/
theorem toNat_word (s : Fin 4096) : (BitVec.ofNat 32 s.val).toNat = s.val := by
  rw [BitVec.toNat_ofNat]; exact Nat.mod_eq_of_lt (by have := s.isLt; omega)

/-- Row `s` of the column of row ids is the word of `s`: the id is not signed-below zero, so the branch that
    would add the table's length is not taken. -/
theorem takeIdx_apply (s : Fin 4096) (c : Fin 1) : takeIdx (ix2 s c) = BitVec.ofNat 32 s.val := by
  have hlt : ¬ IntOp.cmpi .slt (BitVec.ofNat 32 s.val) 0#32 = 1#1 := by
    rw [StableHlo.Predicate.slt_iff_toNat (by rw [toNat_word]; have := s.isLt; omega) (by decide)]
    simp
  show Scalar.select (IntOp.cmpi .slt (BitVec.ofNat 32 s.val) 0#32) (IntOp.addi (BitVec.ofNat 32 s.val) 8192#32)
    (BitVec.ofNat 32 s.val) = _
  rw [eq_zero_of_ne_one hlt, select_zero]

/-! ## The in-range mask -/

/-- A conjunction of bits that are all one, started from one, is one. -/
theorem fold_andi_ones {ι : Type} (S : Finset ι) (f : ι → BitVec 1) (hf : ∀ i ∈ S, f i = 1#1) :
    S.fold IntOp.andi 1#1 f = 1#1 := by
  induction S using Finset.cons_induction with
  | empty => rfl
  | cons a S ha ih =>
    rw [Finset.fold_cons, hf a (Finset.mem_cons_self a S), ih (fun i hi => hf i (Finset.mem_cons_of_mem hi))]
    rfl

/-- Every id lies inside the table, 0 ≤ s ≤ 8191 read signed, so both comparisons give one at every entry of the
    column and their conjunction along the unit axis is one. -/
theorem takeMask_apply (j : S4096.Idx) : takeMask j = 1#1 := by
  unfold takeMask
  simp only []
  rw [Host.reduce_eq_fold]
  refine fold_andi_ones _ _ (fun i _ => ?_)
  obtain ⟨a, b, rfl⟩ : ∃ (a : Fin 4096) (b : Fin 1), i = ix2 a b := ⟨i 0, i 1, eq_ix2 i⟩
  show IntOp.andi (IntOp.cmpi .sge (takeIdx (ix2 a b)) 0#32) (IntOp.cmpi .sle (takeIdx (ix2 a b)) 8191#32) = 1#1
  have hv : (BitVec.ofNat 32 a.val).toNat < 2 ^ 31 := by rw [toNat_word]; have := a.isLt; omega
  rw [takeIdx_apply, (StableHlo.Predicate.sge_iff_toNat hv (by decide)).mpr (by simp),
    (StableHlo.Predicate.sle_iff_toNat hv (by decide)).mpr (by rw [toNat_word]; have := a.isLt; simp; omega)]
  rfl

/-! ## The gather -/

/-- The lookup's dimension numbers: operand axis 0 collapsed and start-indexed, operand axis 1 kept whole as result
    axis 1. -/
abbrev GD : GatherDims S8192x1024 S4096x1 S4096x1024 := gather_S8192x1024_S4096x1_S4096x1024_1_0_n_n_0_1_11024

/-- The gather read at (s, d): the operand at row "start index of s, read signed and clamped into 0 … 8191" and
    column d. On operand axis 0 (collapsed, start-indexed) the coordinate is the clamped start alone; on operand
    axis 1 (not start-indexed, kept) it is the result's offset coordinate alone. -/
theorem gather_apply {α : Type} (p : S8192x1024.Idx → α) (idx : IVec S4096x1 32) (s : Fin 4096) (d : Fin 1024) :
    Host.gather gather_S8192x1024_S4096x1_S4096x1024_1_0_n_n_0_1_11024 p idx (ix2 s d)
      = p (ix2 (⟨min (idx (ix2 s 0)).toInt.toNat 8191, by omega⟩ : Fin 8192) d) := by
  unfold Host.gather
  congr 1
  funext a
  refine Fin.ext ?_
  match a with
  | ⟨0, _⟩ =>
    show GD.start (ix2 s d) idx 0 + GD.batchCoord (ix2 s d) 0 + GD.offCoord (ix2 s d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GD.startIndexMap from List.mem_singleton.mpr rfl)]
    -- the start index of result (s, d) sits at (s, 0) of the column
    have hsi : GD.siIdx (ix2 s d) ⟨List.idxOf (0 : Fin 2) GD.startIndexMap,
        List.idxOf_lt_length_iff.2 (List.mem_singleton.mpr rfl)⟩ = ix2 s 0 := by
      funext b; refine Fin.ext ?_
      match b with
      | ⟨0, _⟩ => rfl
      | ⟨1, _⟩ => rfl
    rw [hsi]
    rfl
  | ⟨1, _⟩ =>
    show GD.start (ix2 s d) idx 1 + GD.batchCoord (ix2 s d) 1 + GD.offCoord (ix2 s d) 1 = d.val
    rw [GatherDims.batchCoord_eq_zero _ _ _ List.not_mem_nil]
    unfold GatherDims.start
    rw [dif_neg (show (1 : Fin 2) ∉ GD.startIndexMap from fun h => absurd (List.mem_singleton.mp h) (by decide))]
    simp only [Nat.add_zero, Nat.zero_add]
    unfold GatherDims.offCoord
    rw [dif_pos (show (1 : Fin 2) ∈ GD.sKept from
      (GatherDims.mem_sKept _ _).mpr ⟨fun h => absurd (List.mem_singleton.mp h) (by decide), List.not_mem_nil⟩)]
    rfl

/-! ## The looked-up rows -/

/-- Entry (s, d) of the looked-up rows is entry (s, d) of the table. -/
theorem takeTerm_apply (p : FVec Ideal S8192x1024 .f32) (s : Fin 4096) (d : Fin 1024) :
    takeTerm (F := Ideal) p (ix2 s d) = p (ix2 (Fin.castLE (by decide : 4096 ≤ 8192) s) d) := by
  unfold takeTerm
  simp only []
  rw [select_apply]
  -- the mask, laid along the rows, is one at (s, d): the gathered entry is chosen
  have hm : broadcastInDim S4096x1024 ![0] bcast_S4096_S4096x1024_0 takeMask (ix2 s d) = 1#1 := takeMask_apply _
  rw [hm, select_one, gather_apply]
  -- the start index s, read signed, is s, and the clamp into 0 … 8191 leaves it
  congr 2
  refine Fin.ext ?_
  have hs := s.isLt
  show min (takeIdx (ix2 s 0)).toInt.toNat 8191 = s.val
  rw [takeIdx_apply, StableHlo.Predicate.toInt_ofNat_small s.val (by omega), Int.toNat_natCast]
  omega

end Cert.ReferenceIdeal.LN

end
-- ==== Proof.RefValue.lean ====
/-
  The reference's composed term, read at an entry, is the specification: the looked-up row `s` is row `s` of the
  position table, the two broadcasts over the batch read it at (s, d), the two row sums run over the last axis,
  and what is left is the reference's arrangement of one row's normalisation.

  Every operation that is not entry by entry is read once, at an entry given by its coordinates: a sum over the
  last axis is the starting value plus the row's 1024 entries; a broadcast reads its operand at the coordinates
  it keeps, at 0 on an axis of length one. The layer normalisation at (bi, s, d) is then the row law on the row
  `k ↦ e (bi, s, k)`, and with `e = x + (the looked-up rows, spread over the batch)` that row is `rowOf x p bi s`.
-/
import proofs.«102654_g70497593197500_cont_sun_m_265_14_alg».proof.Proof.RefTerm
import proofs.«102654_g70497593197500_cont_sun_m_265_14_alg».proof.Proof.RefTake
import proofs.«102654_g70497593197500_cont_sun_m_265_14_alg».proof.Proof.Spec
import Idealize.ShloMosaic.Lib.ValueIdx
import Idealize.ShloMosaic.Lib.Pipeline.Value
import Idealize.ShloMosaic.PureOps.Ideal.Laws

noncomputable section

namespace Cert.ReferenceIdeal.LN

open Cert.ReferenceIdeal Idealize.ShloMosaic Idealize.ShloMosaic.ValueIdx
open Cert.ReferenceIdeal.Facts₀ Cert.ReferenceIdeal.Facts

variable [Facts]

/-! ## The non-pointwise operations, each read at an entry

Each lemma takes the operation's shape fact as a hypothesis, so that it applies whichever proof of the fact the
term carries. -/

/-- The sum over the last axis at (bi, s): the starting value plus the 1024 entries of that row. -/
theorem rowSum_apply (h' : S4x4096x1024.ReducesTo [2] S4x4096) (hu : 0 < S_.numel)
    (e : FVec Ideal S4x4096x1024 .f32) (c : FVec Ideal S_ .f32) (bi : Fin 4) (s : Fin 4096) :
    Host.reduceAdd (F := Ideal) e c h' hu (ix2 bi s) = c ix0 + ∑ k : Fin 1024, e (ix3 bi s k) := by
  show Ideal.hostReduceAdd h' e (c (Shape.Idx.first hu)) (ix2 bi s) = _
  rw [Ideal.hostReduceAdd_single h' (by decide)]
  refine congrArg₂ (· + ·) (congrArg c (funext fun a => a.elim0)) (Finset.sum_congr rfl fun k _ => ?_)
  exact congrArg e (funext fun a => Fin.ext (by match a with | ⟨0, _⟩ => rfl | ⟨1, _⟩ => rfl | ⟨2, _⟩ => rfl))

/-- A scalar spread over the column shape reads the scalar. -/
theorem scalarCol_apply {α : Type} (h : S_.BroadcastsInDim S4x4096x1 ![]) (c : S_.Idx → α) (j : S4x4096x1.Idx) :
    broadcastInDim S4x4096x1 ![] h c j = c ix0 :=
  broadcastInDim_apply _ h c j ix0 (fun a => a.elim0)

/-- A per-row value given a trailing unit axis reads the per-row value. -/
theorem keepCol_apply {α : Type} (h : S4x4096.BroadcastsInDim S4x4096x1 ![0, 1]) (v : S4x4096.Idx → α)
    (bi : Fin 4) (s : Fin 4096) (z : Fin 1) :
    broadcastInDim S4x4096x1 ![0, 1] h v (ix3 bi s z) = v (ix2 bi s) :=
  broadcastInDim_apply _ h v (ix3 bi s z) (ix2 bi s) (fun a => by match a with | ⟨0, _⟩ => rfl | ⟨1, _⟩ => rfl)

/-- A column spread along the last axis reads the column's one entry. -/
theorem spreadCol_apply {α : Type} (h : S4x4096x1.BroadcastsInDim S4x4096x1024 ![0, 1, 2]) (v : S4x4096x1.Idx → α)
    (bi : Fin 4) (s : Fin 4096) (d : Fin 1024) :
    broadcastInDim S4x4096x1024 ![0, 1, 2] h v (ix3 bi s d) = v (ix3 bi s (0 : Fin 1)) :=
  broadcastInDim_apply _ h v (ix3 bi s d) (ix3 bi s (0 : Fin 1))
    (fun a => by match a with | ⟨0, _⟩ => rfl | ⟨1, _⟩ => rfl | ⟨2, _⟩ => rfl)

/-- A vector along the last axis given two leading unit axes reads the vector. -/
theorem vecUnit_apply {α : Type} (h : S1024.BroadcastsInDim S1x1x1024 ![2]) (v : S1024.Idx → α)
    (z0 z1 : Fin 1) (d : Fin 1024) :
    broadcastInDim S1x1x1024 ![2] h v (ix3 z0 z1 d) = v (ix1 d) :=
  broadcastInDim_apply _ h v (ix3 z0 z1 d) (ix1 d) (fun a => by match a with | ⟨0, _⟩ => rfl)

/-- That vector spread over batch and position reads the vector at the last coordinate. -/
theorem spreadVec_apply {α : Type} (h : S1x1x1024.BroadcastsInDim S4x4096x1024 ![0, 1, 2]) (v : S1x1x1024.Idx → α)
    (bi : Fin 4) (s : Fin 4096) (d : Fin 1024) :
    broadcastInDim S4x4096x1024 ![0, 1, 2] h v (ix3 bi s d) = v (ix3 (0 : Fin 1) (0 : Fin 1) d) :=
  broadcastInDim_apply _ h v (ix3 bi s d) (ix3 (0 : Fin 1) (0 : Fin 1) d)
    (fun a => by match a with | ⟨0, _⟩ => rfl | ⟨1, _⟩ => rfl | ⟨2, _⟩ => rfl)

/-- A table of rows given a leading unit axis reads the table. -/
theorem tabUnit_apply {α : Type} (h : S4096x1024.BroadcastsInDim S1x4096x1024 ![1, 2]) (v : S4096x1024.Idx → α)
    (z : Fin 1) (s : Fin 4096) (d : Fin 1024) :
    broadcastInDim S1x4096x1024 ![1, 2] h v (ix3 z s d) = v (ix2 s d) :=
  broadcastInDim_apply _ h v (ix3 z s d) (ix2 s d) (fun a => by match a with | ⟨0, _⟩ => rfl | ⟨1, _⟩ => rfl)

/-- That table spread over the batch reads the table at (s, d). -/
theorem spreadTab_apply {α : Type} (h : S1x4096x1024.BroadcastsInDim S4x4096x1024 ![0, 1, 2]) (v : S1x4096x1024.Idx → α)
    (bi : Fin 4) (s : Fin 4096) (d : Fin 1024) :
    broadcastInDim S4x4096x1024 ![0, 1, 2] h v (ix3 bi s d) = v (ix3 (0 : Fin 1) s d) :=
  broadcastInDim_apply _ h v (ix3 bi s d) (ix3 (0 : Fin 1) s d)
    (fun a => by match a with | ⟨0, _⟩ => rfl | ⟨1, _⟩ => rfl | ⟨2, _⟩ => rfl)

/-- The host's quotient and square root at an entry are the extended reals' division and root. -/
theorem hdiv_apply {S : Shape} (a b : FVec Ideal S .f32) (i : S.Idx) :
    Host.divf (F := Ideal) a b i = Ideal.div (a i) (b i) := rfl
theorem hsqrt_apply {S : Shape} (a : FVec Ideal S .f32) (i : S.Idx) :
    Host.sqrt (F := Ideal) a i = Ideal.sqrt (a i) := rfl

/-! ## The normalisation of one row, and the whole term -/

/-- The layer normalisation at entry (bi, s, d) is the reference's arrangement on row (bi, s) of `e`. -/
theorem lnTerm_apply (e : FVec Ideal S4x4096x1024 .f32) (g b : FVec Ideal S1024 .f32)
    (bi : Fin 4) (s : Fin 4096) (d : Fin 1024) :
    lnTerm (F := Ideal) e g b (ix3 bi s d)
      = Cert.LayerNorm.rowR (fun k : Fin 1024 => e (ix3 bi s k)) (e (ix3 bi s d)) (g (ix1 d)) (b (ix1 d)) := by
  unfold lnTerm Cert.LayerNorm.rowR
  simp only [addf_apply, subf_apply, mulf_apply, hdiv_apply, hsqrt_apply, constant_apply, (rowSum_apply),
    (scalarCol_apply), (keepCol_apply), (spreadCol_apply), (vecUnit_apply), (spreadVec_apply)]

/-- The reference's term is the specification, index by index. -/
theorem refTerm_eq_G (x : FVec Ideal S4x4096x1024 .f32) (p : FVec Ideal S8192x1024 .f32) (g b : FVec Ideal S1024 .f32) :
    refTerm (F := Ideal) x p g b = Cert.LayerNorm.G x p g b := by
  funext i
  obtain ⟨bi, s, d, rfl⟩ : ∃ (bi : Fin 4) (s : Fin 4096) (d : Fin 1024), i = ix3 bi s d := ⟨i 0, i 1, i 2, eq_ix3 i⟩
  unfold refTerm
  rw [lnTerm_apply]
  simp only [addf_apply, (spreadTab_apply), (tabUnit_apply), takeTerm_apply]
  rfl

end Cert.ReferenceIdeal.LN

end
-- ==== Proof.lean ====
/-
  The kernel adds to every row `x[b, s, :]` of the embeddings row `s` of the position table — a contiguous slice
  of the table, taken through the block index maps — and layer-normalises the sum: the variance as the mean of the
  squares less the squared mean, the centred row multiplied by the reciprocal root of (variance + ε), then scaled
  by `gamma` and shifted by `beta`. The reference looks the rows up with position ids 0 … 4095, takes the variance as
  the mean of the squared deviations, and divides by the root.
  Over the extended reals the two agree where the embeddings and the position table are finite, which the
  precondition says: the two variances are then one nonnegative real, ε is positive, and multiplying by the reciprocal
  root is dividing by the root (`Cert.LayerNorm.rowK_eq_rowR`); `gamma` and `beta` enter both sides alike and need no
  finiteness. The kernel's side: what its body stores at an entry (`KernelPayload`), the eight blocks tiling the
  flat array and the views before and after the region (`KernelValue`). The reference's side: its run as a straight
  line of host operations (`RefRun`), the lookup read at an entry (`RefTake`), and its term read index by index
  (`RefValue`). The frames of the two kernel programs are the generated ones; the reference's is its run with the
  result dropped; the idealization rewrote nothing, so `preserves` is trivial.
-/
import proofs.«102654_g70497593197500_cont_sun_m_265_14_alg».proof.Defs
import proofs.«102654_g70497593197500_cont_sun_m_265_14_alg».proof.Proof.Gen.Kernel
import proofs.«102654_g70497593197500_cont_sun_m_265_14_alg».proof.Proof.Gen.Kernel.Skeleton
import proofs.«102654_g70497593197500_cont_sun_m_265_14_alg».proof.Proof.Gen.Kernel.Launch
import proofs.«102654_g70497593197500_cont_sun_m_265_14_alg».proof.Proof.Gen.Kernel.Points
import proofs.«102654_g70497593197500_cont_sun_m_265_14_alg».proof.Proof.Gen.Kernel.Frame
import proofs.«102654_g70497593197500_cont_sun_m_265_14_alg».proof.Proof.Gen.KernelIdeal
import proofs.«102654_g70497593197500_cont_sun_m_265_14_alg».proof.Proof.Gen.KernelIdeal.Skeleton
import proofs.«102654_g70497593197500_cont_sun_m_265_14_alg».proof.Proof.Gen.KernelIdeal.Launch
import proofs.«102654_g70497593197500_cont_sun_m_265_14_alg».proof.Proof.Gen.KernelIdeal.Points
import proofs.«102654_g70497593197500_cont_sun_m_265_14_alg».proof.Proof.Gen.KernelIdeal.Frame
import proofs.«102654_g70497593197500_cont_sun_m_265_14_alg».proof.Proof.Gen.ReferenceIdeal
import proofs.«102654_g70497593197500_cont_sun_m_265_14_alg».proof.Proof.Gen.Pre_finite_inputs
import proofs.«102654_g70497593197500_cont_sun_m_265_14_alg».proof.Proof.Spec
import proofs.«102654_g70497593197500_cont_sun_m_265_14_alg».proof.Proof.Finite
import proofs.«102654_g70497593197500_cont_sun_m_265_14_alg».proof.Proof.KernelValue
import proofs.«102654_g70497593197500_cont_sun_m_265_14_alg».proof.Proof.RefRun
import proofs.«102654_g70497593197500_cont_sun_m_265_14_alg».proof.Proof.RefValue
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.LN.run (F := Ideal) m ρ)

/-- The idealization rewrote no operation. -/
theorem preserves : Cert.preserves_Kernel_KernelIdeal := trivial

/-- Both programs end with the specification `G` of the (agreeing) arguments: the kernel with its own arrangement of
    it, which is `G` on finite embeddings and a finite position table; the reference with its term, which is `G`. -/
theorem algebraic : Cert.algebraic_KernelIdeal_ReferenceIdeal := by
  intro m ρ m' ρ' hpre hagree
  refine ⟨fun c => Cert.LayerNorm.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.LN.run m ρ)
    obtain ⟨hx, hp⟩ := Cert.LayerNorm.real_of_pre _ _ _ _ (hpre c)
    exact Cert.LayerNorm.GK_eq_G _ _ _ _ hx hp
  · refine (θ_run Cert.ReferenceIdeal.defs _ _).mono (fun r h c => ⟨(h c).1.trans ?_, (h c).2⟩)
      (Cert.ReferenceIdeal.LN.run (F := Ideal) m' ρ')
    rw [(hagree c).1, (hagree c).2.1, (hagree c).2.2.1, (hagree c).2.2.2]
    exact Cert.ReferenceIdeal.LN.refTerm_eq_G _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
